-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x256 : Shape := ⟨2, ![800000, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S512x256 .f32) (main_arg6 : FVec F S256 .f32) (main_arg7 : FVec F S256 .f32) (main_arg8 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg5
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000x256 .f32) (main_arg3 : FVec F S512x512 .f32) (main_arg4 : FVec F S512 .f32) (main_arg5 : FVec F S512x256 .f32) (main_arg6 : FVec F S256 .f32) (main_arg7 : FVec F S256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x256 .f32 := Host.absf main_arg2
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000x256 : Shape := ⟨2, ![800000, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S256x512 : Shape := ⟨2, ![256, 512]⟩
abbrev S1000x256 : Shape := ⟨2, ![1000, 256]⟩
abbrev S1000x512 : Shape := ⟨2, ![1000, 512]⟩
abbrev S1x512 : Shape := ⟨2, ![1, 512]⟩
abbrev S1x256 : Shape := ⟨2, ![1, 256]⟩
abbrev S1000 : Shape := ⟨1, ![1000]⟩
abbrev S1000x1 : Shape := ⟨2, ![1000, 1]⟩

abbrev nBuf : Space → Nat
  | .hbm => 21
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x256, .f32⟩
  | .hbm, ⟨13, _⟩ => ⟨S800000x1, .i32⟩
  | .hbm, ⟨14, _⟩ => ⟨S50000x256, .f32⟩
  | .hbm, ⟨15, _⟩ => ⟨S256x512, .f32⟩
  | .hbm, ⟨16, _⟩ => ⟨S256x512, .bf16⟩
  | .hbm, ⟨17, _⟩ => ⟨S256x512, .f32⟩
  | .hbm, ⟨18, _⟩ => ⟨S256x512, .bf16⟩
  | .hbm, ⟨19, _⟩ => ⟨S512x256, .bf16⟩
  | .hbm, ⟨20, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x512, .bf16⟩
  | .local _ .vmem, ⟨5, _⟩ => ⟨S256x512, .bf16⟩
  | .local _ .vmem, ⟨6, _⟩ => ⟨S512, .f32⟩
  | .local _ .vmem, ⟨7, _⟩ => ⟨S512x256, .bf16⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S1000x256, .f32⟩
  | .local _ .vmem, ⟨12, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  bcast_S_S50000x256 : S_.BroadcastsInDim S50000x256 (![] : Fin 0 → Fin S50000x256.rank)
  bcast_S800000_S800000x1_0 : S800000.BroadcastsInDim S800000x1 (![0] : Fin 1 → Fin S800000x1.rank)
  slices_S512x512_S256x512_0_0 : S512x512.Slices ![0, 0] S256x512
  bitsLt_bf16_f32 : FTy.bits .bf16 < FTy.bits .f32
  slices_S512x512_S256x512_256_0 : S512x512.Slices ![256, 0] S256x512
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S1x512 : S512.ShapeCasts S1x512
  broadcasts_S1x512_S1000x512 : S1x512.Broadcasts S1000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  scatter_S50000x256_S800000x1_S800000x256_1_0_0_1_wf : ScatterDims.WF S50000x256 S800000x1 S800000x256 [1] [0] [0] 1
  dot_S1000x256_S256x512_S1000x512_1_0_0_1_n_n_wf : DotDims.WF S1000x256 S256x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S50000x256.size a
  hwx0_9 : ∀ i : grid0.Coords, EltTy.bits .f32 = 32 ∨ (Rect.block (s := S50000x256) S1000x256.size (cc0_transform_9 i) (hinb0_9 i)).WholeWords (EltTy.packing .f32)

variable [Facts₀]

def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x512_S1000x512_1_0_0_1_n_n : DotDims S1000x256 S256x512 S1000x512 where
  lhsContracting := [1]
  rhsContracting := [0]
  lhsNonContracting := [0]
  rhsNonContracting := [1]
  lhsBatch := []
  rhsBatch := []
  wf := dot_S1000x256_S256x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x256 : Shape := ⟨2, ![800000, 256]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x512 : Shape := ⟨2, ![50000, 512]⟩
abbrev S1x512 : Shape := ⟨2, ![1, 512]⟩
abbrev S1x256 : Shape := ⟨2, ![1, 256]⟩
abbrev S50000 : Shape := ⟨1, ![50000]⟩
abbrev S50000x1 : Shape := ⟨2, ![50000, 1]⟩

abbrev nBuf : Space → Nat
  | .hbm => 63
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x256, .f32⟩
  | .hbm, ⟨3, _⟩ => ⟨S512x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x256, .f32⟩
  | .hbm, ⟨13, _⟩ => ⟨S800000x1, .i32⟩
  | .hbm, ⟨14, _⟩ => ⟨S50000x256, .f32⟩
  | .hbm, ⟨15, _⟩ => ⟨S50000x512, .f32⟩
  | .hbm, ⟨16, _⟩ => ⟨S50000x512, .f32⟩
  | .hbm, ⟨17, _⟩ => ⟨S1x512, .f32⟩
  | .hbm, ⟨18, _⟩ => ⟨S50000x512, .f32⟩
  | .hbm, ⟨19, _⟩ => ⟨S50000x512, .f32⟩
  | .hbm, ⟨20, _⟩ => ⟨S50000x512, .f32⟩
  | .hbm, ⟨21, _⟩ => ⟨S50000x512, .f32⟩
  | .hbm, ⟨22, _⟩ => ⟨S_, .f32⟩
  | .hbm, ⟨23, _⟩ => ⟨S50000x512, .f32⟩
  | .hbm, ⟨24, _⟩ => ⟨S50000x512, .f32⟩
  | .hbm, ⟨25, _⟩ => ⟨S_, .f32⟩
  | .hbm, ⟨26, _⟩ => ⟨S50000x512, .f32⟩
  | .hbm, ⟨27, _⟩ => ⟨S50000x512, .f32⟩
  | .hbm, ⟨28, _⟩ => ⟨S50000x512, .f32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000x1, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S1x256, .f32⟩
  | .hbm, ⟨60, _⟩ => ⟨S50000x256, .f32⟩
  | .hbm, ⟨61, _⟩ => ⟨S50000x256, .f32⟩
  | .hbm, ⟨62, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S50000x256 : S_.BroadcastsInDim S50000x256 (![] : Fin 0 → Fin S50000x256.rank)
  bcast_S800000_S800000x1_0 : S800000.BroadcastsInDim S800000x1 (![0] : Fin 1 → Fin S800000x1.rank)
  concatenates_S50000x256_S50000x256_S50000x512_d1 : Shape.Concatenates [S50000x256, S50000x256] S50000x512 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  scatter_S50000x256_S800000x1_S800000x256_1_0_0_1_wf : ScatterDims.WF S50000x256 S800000x1 S800000x256 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []

variable [Facts₀]

def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.RowSpec.lean ====
/-
  The node update of one row, as a function on the extended reals.

  A row of the result depends on the matching row `xr` of the node features and the matching row `ar` of the
  edge aggregate only.  With `W1a`, `W1b` the upper and lower halves of the first weight matrix,
    pre j   = Σ_k xr k · W1a k j + Σ_k ar k · W1b k j + b1 j          (512 hidden units)
    act j   = pre j · logistic (pre j)                                  (SiLU)
    lin d   = Σ_j act j · W2 j d + b2 d                                 (256 features)
    mean    = (Σ_d lin d) / 256,   cen d = lin d − mean,   var = (Σ_d cen d · cen d) / 256
    rowOut d = cen d · rsqrt (var + ε) · g d + be d + xr d              (LayerNorm, then the residual).
  The two divisors and ε are kept as the f32 words both programs print; they are never evaluated.

  The one law used between the two programs: a sum over 512 positions is the sum over the first 256 plus the sum
  over the last 256 (`sum_halves`) — addition of extended reals is commutative and associative, so no finiteness
  is needed for it.
-/
import Idealize.ShloMosaic.PureOps.Ideal
import Idealize.ShloMosaic.PureOps.IdealRules
import Idealize.ShloMosaic.Lib.ValueIdx
import Mathlib.Algebra.BigOperators.Fin

noncomputable section

open scoped BigOperators
open Idealize.ShloMosaic Idealize.ShloMosaic.ValueIdx

namespace Cert.NodeUpdate

/-- Position `k` of the first half of an axis of 512. -/
abbrev lo (k : Fin 256) : Fin 512 := ⟨k.val, Nat.lt_of_lt_of_le k.isLt (by decide)⟩
/-- Position `k` of the second half of an axis of 512. -/
abbrev hi (k : Fin 256) : Fin 512 := ⟨256 + k.val, Nat.add_lt_add_left k.isLt 256⟩

/-- A sum over 512 positions is the sum over the first half plus the sum over the second half. -/
theorem sum_halves (f : Fin 512 → EReal) :
    ∑ k : Fin 512, f k = (∑ k : Fin 256, f (lo k)) + (∑ k : Fin 256, f (hi k)) :=
  Fin.sum_univ_add (a := 256) (b := 256) f

section Row
variable (W1a W1b : Fin 256 → Fin 512 → EReal) (b1 : Fin 512 → EReal) (W2 : Fin 512 → Fin 256 → EReal)
  (b2 g be : Fin 256 → EReal) (xr ar : Fin 256 → EReal)

/-- The hidden layer before its activation. -/
def pre (j : Fin 512) : EReal :=
  ((∑ k : Fin 256, xr k * W1a k j) + (∑ k : Fin 256, ar k * W1b k j)) + b1 j

/-- SiLU of the hidden layer. -/
def act (j : Fin 512) : EReal :=
  pre W1a W1b b1 xr ar j * Ideal.logistic (pre W1a W1b b1 xr ar j)

/-- The second linear layer. -/
def lin (d : Fin 256) : EReal :=
  (∑ j : Fin 512, act W1a W1b b1 xr ar j * W2 j d) + b2 d

/-- The row's mean over its 256 features. -/
def mean : EReal :=
  Ideal.div (∑ d : Fin 256, lin W1a W1b b1 W2 b2 xr ar d) (Ideal.ofBits .f32 0x43800000#32)

/-- The centred row. -/
def cen (d : Fin 256) : EReal :=
  lin W1a W1b b1 W2 b2 xr ar d - mean W1a W1b b1 W2 b2 xr ar

/-- The row's variance. -/
def var : EReal :=
  Ideal.div (∑ d : Fin 256, cen W1a W1b b1 W2 b2 xr ar d * cen W1a W1b b1 W2 b2 xr ar d) (Ideal.ofBits .f32 0x43800000#32)

/-- The normalised row, scaled and shifted, plus the residual. -/
def rowOut (d : Fin 256) : EReal :=
  cen W1a W1b b1 W2 b2 xr ar d * Ideal.rsqrt (var W1a W1b b1 W2 b2 xr ar + Ideal.ofBits .f32 0x3727C5AC#32) * g d + be d + xr d

end Row

/-- THE RESULT ARRAY as one function of the node features `x`, the edge aggregate `agg` and the parameters: entry
    `(n, d)` is `rowOut` of row `n` of `x` and row `n` of `agg`, at feature `d`; the first weight matrix enters
    through its upper half (rows 0–255, met by `x`) and its lower half (rows 256–511, met by `agg`). -/
def G (x agg : (⟨2, ![50000, 256]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 g be : (⟨1, ![256]⟩ : Shape).Idx → EReal) : (⟨2, ![50000, 256]⟩ : Shape).Idx → EReal :=
  fun i => rowOut (fun k j => W1 (ix2 (lo k) j)) (fun k j => W1 (ix2 (hi k) j)) (fun j => b1 (ix1 j))
    (fun j d => W2 (ix2 j d)) (fun d => b2 (ix1 d)) (fun d => g (ix1 d)) (fun d => be (ix1 d))
    (fun k => x (ix2 (⟨(i 0).val, idx2_lt0 i⟩ : Fin 50000) k)) (fun k => agg (ix2 (⟨(i 0).val, idx2_lt0 i⟩ : Fin 50000) k))
    (⟨(i 1).val, idx2_lt1 i⟩ : Fin 256)

/-- `G` at `(n, d)`. -/
theorem G_apply (x agg : (⟨2, ![50000, 256]⟩ : Shape).Idx → EReal) (W1 : (⟨2, ![512, 512]⟩ : Shape).Idx → EReal)
    (b1 : (⟨1, ![512]⟩ : Shape).Idx → EReal) (W2 : (⟨2, ![512, 256]⟩ : Shape).Idx → EReal)
    (b2 g be : (⟨1, ![256]⟩ : Shape).Idx → EReal) (n : Fin 50000) (d : Fin 256) :
    G x agg W1 b1 W2 b2 g be (ix2 n d)
      = rowOut (fun k j => W1 (ix2 (lo k) j)) (fun k j => W1 (ix2 (hi k) j)) (fun j => b1 (ix1 j))
          (fun j d => W2 (ix2 j d)) (fun d => b2 (ix1 d)) (fun d => g (ix1 d)) (fun d => be (ix1 d))
          (fun k => x (ix2 n k)) (fun k => agg (ix2 n k)) d := rfl

/-- The f32 word of 1.0 is the extended real 1. -/
theorem ofBits_one_f32 : Ideal.ofBits .f32 0x3F800000#32 = 1 := IdealRules.sign_bit.ideal_onePat .f32

/-- `1 / (1 + e^(−p))` written with the word of 1.0 is the logistic function. -/
theorem logistic_expanded (p : EReal) :
    Ideal.div (Ideal.ofBits .f32 0x3F800000#32) (Ideal.ofBits .f32 0x3F800000#32 + Ideal.exp (-p)) = Ideal.logistic p := by
  rw [ofBits_one_f32]; rfl

end Cert.NodeUpdate

end
-- ==== Proof.RefRow.lean ====
/-
  The reference, read row by row.  Entry `(n, d)` of the reference's result is `rowOut` of row `n` of the node
  features and row `n` of the edge aggregate: the joined array `[x | agg]` contracted with the whole first weight
  matrix is the two half contractions added (`sum_halves`); the outlined SiLU is `p · logistic p`, its quotient
  `1 / (1 + e^(−p))` being the logistic function; each of the two means is a host sum from the zero word divided by
  the word of 256; the rest is pointwise.  The edge aggregate itself (a scatter-add) is never opened: it stays the
  term `val_main_v4 x1 x2`.
-/
import proofs.«171386_j1159641170086_1_alg».proof.Proof.Gen.ReferenceIdeal.Read
import proofs.«171386_j1159641170086_1_alg».proof.Proof.RowSpec

noncomputable section

open scoped BigOperators

namespace Cert.NodeUpdate.Ref

open Cert.ReferenceIdeal Cert.ReferenceIdeal.Gen Cert.ReferenceIdeal.Read Idealize.ShloMosaic Idealize.ShloMosaic.ValueIdx Cert.NodeUpdate

variable (x0 : (⟨S50000x256, .f32⟩ : BufTy).Contents (Elt Ideal)) (x1 : (⟨S2x800000, .i32⟩ : BufTy).Contents (Elt Ideal))
  (x2 : (⟨S800000x256, .f32⟩ : BufTy).Contents (Elt Ideal)) (x3 : (⟨S512x512, .f32⟩ : BufTy).Contents (Elt Ideal))
  (x4 : (⟨S512, .f32⟩ : BufTy).Contents (Elt Ideal)) (x5 : (⟨S512x256, .f32⟩ : BufTy).Contents (Elt Ideal))
  (x6 x7 x8 : (⟨S256, .f32⟩ : BufTy).Contents (Elt Ideal))

/-- The first 256 columns of the joined array are the node features. -/
theorem joined_lo (n : Fin 50000) (k : Fin 256) :
    val_main_v5 (F := Ideal) x0 x1 x2 (ix2 n (lo k)) = x0 (ix2 n k) := by
  unfold val_main_v5
  exact concatenate_pair_apply_left 1 x0 (val_main_v4 (F := Ideal) x1 x2) concatenates_S50000x256_S50000x256_S50000x512_d1
    (ix2 n (lo k)) rfl (ix2 n k) (fun b => match b with | ⟨0, _⟩ => rfl | ⟨1, _⟩ => rfl)

/-- The last 256 columns of the joined array are the edge aggregate. -/
theorem joined_hi (n : Fin 50000) (k : Fin 256) :
    val_main_v5 (F := Ideal) x0 x1 x2 (ix2 n (hi k)) = val_main_v4 (F := Ideal) x1 x2 (ix2 n k) := by
  unfold val_main_v5
  exact concatenate_pair_apply_right 1 x0 (val_main_v4 (F := Ideal) x1 x2) concatenates_S50000x256_S50000x256_S50000x512_d1
    (ix2 n (hi k)) rfl rfl (ix2 n k)
    (fun b hb => match b, hb with | ⟨0, _⟩, _ => rfl | ⟨1, _⟩, hb => (hb rfl).elim)
    (Nat.add_comm _ _)

/-- The hidden layer before its activation, at row `n`, unit `j`. -/
theorem hidden_eq (n : Fin 50000) (j : Fin 512) :
    val_main_v9 (F := Ideal) x0 x1 x2 x3 x4 (ix2 n j)
      = pre (fun k j => x3 (ix2 (lo k) j)) (fun k j => x3 (ix2 (hi k) j)) (fun j => x4 (ix1 j))
          (fun k => x0 (ix2 n k)) (fun k => val_main_v4 (F := Ideal) x1 x2 (ix2 n k)) j := by
  rw [val_main_v9_apply, val_main_v6_apply, val_main_v8_apply, val_main_v7_apply, sum_halves]
  unfold pre
  show (_ + _) + _ = (_ + _) + _
  refine congrArg₂ (· + ·) (congrArg₂ (· + ·) ?_ ?_) ?_
  · refine Finset.sum_congr rfl fun k _ => ?_
    rw [show lidx_main_v6 (ix2 n j) (lo k) = ix2 n (lo k) from
      funext fun a => by match a with | ⟨0, _⟩ => rfl | ⟨1, _⟩ => rfl, joined_lo]
    exact congrArg (fun z => x0 (ix2 n k) * x3 z) (funext fun a => by match a with | ⟨0, _⟩ => rfl | ⟨1, _⟩ => rfl)
  · refine Finset.sum_congr rfl fun k _ => ?_
    rw [show lidx_main_v6 (ix2 n j) (hi k) = ix2 n (hi k) from
      funext fun a => by match a with | ⟨0, _⟩ => rfl | ⟨1, _⟩ => rfl, joined_hi]
    exact congrArg (fun z => val_main_v4 (F := Ideal) x1 x2 (ix2 n k) * x3 z)
      (funext fun a => by match a with | ⟨0, _⟩ => rfl | ⟨1, _⟩ => rfl)
  · exact congrArg x4 (funext fun a => by match a with | ⟨0, _⟩ => rfl)

/-- The outlined SiLU of the hidden layer. -/
theorem activated_eq (n : Fin 50000) (j : Fin 512) :
    val_main_v10 (F := Ideal) x0 x1 x2 x3 x4 (ix2 n j)
      = act (fun k j => x3 (ix2 (lo k) j)) (fun k j => x3 (ix2 (hi k) j)) (fun j => x4 (ix1 j))
          (fun k => x0 (ix2 n k)) (fun k => val_main_v4 (F := Ideal) x1 x2 (ix2 n k)) j := by
  rw [val_main_v10_apply, val_main_call0_v5_apply, val_main_call0_v4_apply, val_main_call0_cst_0_apply,
    val_main_call0_v3_apply, val_main_call0_v2_apply, val_main_call0_cst_apply, val_main_call0_v1_apply,
    val_main_call0_v0_apply, hidden_eq]
  exact congrArg (_ * ·) (logistic_expanded _)

/-- The second linear layer, at row `n`, feature `d`. -/
theorem linear_eq (n : Fin 50000) (d : Fin 256) :
    val_main_v14 (F := Ideal) x0 x1 x2 x3 x4 x5 x6 (ix2 n d)
      = lin (fun k j => x3 (ix2 (lo k) j)) (fun k j => x3 (ix2 (hi k) j)) (fun j => x4 (ix1 j))
          (fun j d => x5 (ix2 j d)) (fun d => x6 (ix1 d))
          (fun k => x0 (ix2 n k)) (fun k => val_main_v4 (F := Ideal) x1 x2 (ix2 n k)) d := by
  rw [val_main_v14_apply, val_main_v11_apply, val_main_v13_apply, val_main_v12_apply]
  unfold lin
  show _ + _ = _ + _
  refine congrArg₂ (· + ·) ?_ ?_
  · refine Finset.sum_congr rfl fun j _ => ?_
    rw [show lidx_main_v11 (ix2 n d) j = ix2 n j from
      funext fun a => by match a with | ⟨0, _⟩ => rfl | ⟨1, _⟩ => rfl, activated_eq]
    exact congrArg (fun z => _ * x5 z) (funext fun a => by match a with | ⟨0, _⟩ => rfl | ⟨1, _⟩ => rfl)
  · exact congrArg x6 (funext fun a => by match a with | ⟨0, _⟩ => rfl)

/-- The row mean (kept as a one-column array by the reference). -/
theorem mean_eq (n : Fin 50000) (u : Fin 1) :
    val_main_v18 (F := Ideal) x0 x1 x2 x3 x4 x5 x6 (ix2 n u)
      = mean (fun k j => x3 (ix2 (lo k) j)) (fun k j => x3 (ix2 (hi k) j)) (fun j => x4 (ix1 j))
          (fun j d => x5 (ix2 j d)) (fun d => x6 (ix1 d))
          (fun k => x0 (ix2 n k)) (fun k => val_main_v4 (F := Ideal) x1 x2 (ix2 n k)) := by
  rw [val_main_v18_apply, val_main_v16_apply, val_main_v15_apply, val_main_v17_apply, val_main_cst_1_apply,
    val_main_cst_0_apply]
  unfold mean
  show Ideal.div (Ideal.ofBits .f32 0x00000000#32 + _) _ = Ideal.div _ _
  rw [Ideal.ofBits_zero_f32, zero_add]
  refine congrArg (Ideal.div · _) (Finset.sum_congr rfl fun k _ => ?_)
  rw [show idx_main_v15 (idx_main_v16 (ix2 n u)) k = ix2 n k from
    funext fun a => by match a with | ⟨0, _⟩ => rfl | ⟨1, _⟩ => rfl]
  exact linear_eq x0 x1 x2 x3 x4 x5 x6 n k

/-- The centred row, as the variance reads it. -/
theorem centred_eq (n : Fin 50000) (d : Fin 256) :
    val_main_v20 (F := Ideal) x0 x1 x2 x3 x4 x5 x6 (ix2 n d)
      = cen (fun k j => x3 (ix2 (lo k) j)) (fun k j => x3 (ix2 (hi k) j)) (fun j => x4 (ix1 j))
          (fun j d => x5 (ix2 j d)) (fun d => x6 (ix1 d))
          (fun k => x0 (ix2 n k)) (fun k => val_main_v4 (F := Ideal) x1 x2 (ix2 n k)) d := by
  rw [val_main_v20_apply, val_main_v19_apply, linear_eq,
    show idx_main_v19 (ix2 n d) = ix2 n (⟨0, Nat.one_pos⟩ : Fin 1) from
      funext fun a => by match a with | ⟨0, _⟩ => rfl | ⟨1, _⟩ => rfl, mean_eq]
  rfl

/-- The centred row, as the normalisation reads it (the reference broadcasts the mean a second time). -/
theorem centred_eq' (n : Fin 50000) (d : Fin 256) :
    val_main_v27 (F := Ideal) x0 x1 x2 x3 x4 x5 x6 (ix2 n d)
      = cen (fun k j => x3 (ix2 (lo k) j)) (fun k j => x3 (ix2 (hi k) j)) (fun j => x4 (ix1 j))
          (fun j d => x5 (ix2 j d)) (fun d => x6 (ix1 d))
          (fun k => x0 (ix2 n k)) (fun k => val_main_v4 (F := Ideal) x1 x2 (ix2 n k)) d := by
  rw [val_main_v27_apply, val_main_v26_apply, linear_eq,
    show idx_main_v26 (ix2 n d) = ix2 n (⟨0, Nat.one_pos⟩ : Fin 1) from
      funext fun a => by match a with | ⟨0, _⟩ => rfl | ⟨1, _⟩ => rfl, mean_eq]
  rfl

/-- The row variance. -/
theorem variance_eq (n : Fin 50000) (u : Fin 1) :
    val_main_v25 (F := Ideal) x0 x1 x2 x3 x4 x5 x6 (ix2 n u)
      = var (fun k j => x3 (ix2 (lo k) j)) (fun k j => x3 (ix2 (hi k) j)) (fun j => x4 (ix1 j))
          (fun j d => x5 (ix2 j d)) (fun d => x6 (ix1 d))
          (fun k => x0 (ix2 n k)) (fun k => val_main_v4 (F := Ideal) x1 x2 (ix2 n k)) := by
  rw [val_main_v25_apply, val_main_v23_apply, val_main_v22_apply, val_main_v24_apply, val_main_cst_3_apply,
    val_main_cst_2_apply]
  unfold var
  show Ideal.div (Ideal.ofBits .f32 0x00000000#32 + _) _ = Ideal.div _ _
  rw [Ideal.ofBits_zero_f32, zero_add]
  refine congrArg (Ideal.div · _) (Finset.sum_congr rfl fun k _ => ?_)
  rw [show idx_main_v22 (idx_main_v23 (ix2 n u)) k = ix2 n k from
    funext fun a => by match a with | ⟨0, _⟩ => rfl | ⟨1, _⟩ => rfl, val_main_v21_apply, centred_eq]
  rfl

/-- The reference's result at row `n`, feature `d`. -/
theorem result_row (n : Fin 50000) (d : Fin 256) :
    val_main_v39 (F := Ideal) x0 x1 x2 x3 x4 x5 x6 x7 x8 (ix2 n d)
      = rowOut (fun k j => x3 (ix2 (lo k) j)) (fun k j => x3 (ix2 (hi k) j)) (fun j => x4 (ix1 j))
          (fun j d => x5 (ix2 j d)) (fun d => x6 (ix1 d)) (fun d => x7 (ix1 d)) (fun d => x8 (ix1 d))
          (fun k => x0 (ix2 n k)) (fun k => val_main_v4 (F := Ideal) x1 x2 (ix2 n k)) d := by
  rw [val_main_v39_apply, val_main_v38_apply, val_main_v35_apply, val_main_v32_apply, centred_eq',
    val_main_v31_apply, val_main_v30_apply, val_main_v29_apply, val_main_v28_apply, val_main_cst_4_apply,
    show idx_main_v31 (ix2 n d) = ix2 n (⟨0, Nat.one_pos⟩ : Fin 1) from
      funext fun a => by match a with | ⟨0, _⟩ => rfl | ⟨1, _⟩ => rfl,
    variance_eq, val_main_v34_apply, val_main_v33_apply, val_main_v37_apply, val_main_v36_apply,
    show idx_main_v33 (idx_main_v34 (ix2 n d)) = ix1 d from funext fun a => by match a with | ⟨0, _⟩ => rfl,
    show idx_main_v36 (idx_main_v37 (ix2 n d)) = ix1 d from funext fun a => by match a with | ⟨0, _⟩ => rfl]
  rfl

/-- THE REFERENCE'S RESULT is `G` of the node features, the edge aggregate and the parameters. -/
theorem result_eq :
    val_main_v39 (F := Ideal) x0 x1 x2 x3 x4 x5 x6 x7 x8 = G x0 (val_main_v4 (F := Ideal) x1 x2) x3 x4 x5 x6 x7 x8 := by
  funext i
  obtain ⟨n, d, rfl⟩ : ∃ (n : Fin 50000) (d : Fin 256), i = ix2 n d := ⟨i 0, i 1, eq_ix2 i⟩
  rw [G_apply]
  exact result_row x0 x1 x2 x3 x4 x5 x6 x7 x8 n d

end Cert.NodeUpdate.Ref

end
-- ==== Proof.LibColumn.lean ====
/-
  Column vectors read at an index: a row statistic kept as a one-column array (the shape a sum with kept dimensions
  has) and then spread back over the row.
-/
import Idealize.ShloMosaic.Lib.ValueLayout
import Idealize.ShloMosaic.Lib.Pipeline.Value

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KerRow.lean ====
/-
  The kernel's body at one row.  The body works on a block of 1000 rows: `x0`, `x1` are the block's rows of the node
  features and of the edge aggregate, `x2`, `x3` the two halves of the first weight matrix, `x4` … `x8` the other
  parameters, each whole.  Entry `(r, d)` of what the body stores is `rowOut` of row `r` of `x0` and row `r` of `x1`:
  each of the three matrix products into a zero accumulator is a plain sum over the contracted positions, a change
  of float format is the identity on extended reals, a bias is its vector read at the column, a sum along the row
  kept as a one-column array is read back at column 0, and the rest is pointwise.
-/
import proofs.«171386_j1159641170086_1_alg».proof.Proof.Gen.KernelIdeal.Skeleton
import proofs.«171386_j1159641170086_1_alg».proof.Proof.RowSpec
import proofs.«171386_j1159641170086_1_alg».proof.Proof.LibColumn
import Idealize.ShloMosaic.PureOps.Ideal.Laws

noncomputable section

open scoped BigOperators

namespace Cert.NodeUpdate.Ker

open Cert.KernelIdeal Cert.KernelIdeal.Gen Idealize.ShloMosaic Idealize.ShloMosaic.ValueIdx Cert.NodeUpdate

/-! ## The three matrix products -/

theorem lhs1_0 (i : S1000x512.Idx) (q : dot_S1000x256_S256x512_S1000x512_1_0_0_1_n_n.contr.Idx) :
    (dot_S1000x256_S256x512_S1000x512_1_0_0_1_n_n.lhsIdx i q 0).val = (i 0).val := by
  unfold DotDims.lhsIdx
  rw [dif_neg (show ¬(0 : Fin S1000x256.rank) ∈ dot_S1000x256_S256x512_S1000x512_1_0_0_1_n_n.lhsBatch by decide), dif_pos (show (0 : Fin S1000x256.rank) ∈ dot_S1000x256_S256x512_S1000x512_1_0_0_1_n_n.lhsNonContracting by decide)]
  rfl
theorem lhs1_1 (i : S1000x512.Idx) (q : dot_S1000x256_S256x512_S1000x512_1_0_0_1_n_n.contr.Idx) :
    (dot_S1000x256_S256x512_S1000x512_1_0_0_1_n_n.lhsIdx i q 1).val = (q ⟨0, by decide⟩).val :=
  dot_S1000x256_S256x512_S1000x512_1_0_0_1_n_n.lhsIdx_val_of_single rfl i q
theorem rhs1_0 (i : S1000x512.Idx) (q : dot_S1000x256_S256x512_S1000x512_1_0_0_1_n_n.contr.Idx) :
    (dot_S1000x256_S256x512_S1000x512_1_0_0_1_n_n.rhsIdx i q 0).val = (q ⟨0, by decide⟩).val :=
  dot_S1000x256_S256x512_S1000x512_1_0_0_1_n_n.rhsIdx_val_of_single rfl i q
theorem rhs1_1 (i : S1000x512.Idx) (q : dot_S1000x256_S256x512_S1000x512_1_0_0_1_n_n.contr.Idx) :
    (dot_S1000x256_S256x512_S1000x512_1_0_0_1_n_n.rhsIdx i q 1).val = (i 1).val := by
  unfold DotDims.rhsIdx
  rw [dif_neg (show ¬(1 : Fin S256x512.rank) ∈ dot_S1000x256_S256x512_S1000x512_1_0_0_1_n_n.rhsBatch by decide), dif_pos (show (1 : Fin S256x512.rank) ∈ dot_S1000x256_S256x512_S1000x512_1_0_0_1_n_n.rhsNonContracting by decide)]
  rfl

/-- A [1000, 256] × [256, 512] product into the zero accumulator, at `(r, c)`: the sum over the 256 contracted positions. -/
theorem matmul1_apply (A : FVec Ideal S1000x256 .bf16) (B : FVec Ideal S256x512 .bf16) (r : Fin 1000) (c : Fin 512) :
    matmul dot_S1000x256_S256x512_S1000x512_1_0_0_1_n_n none A B (constant S1000x512 .f32 0x00000000#32) (ix2 r c)
      = ∑ k : Fin 256, A (ix2 r k) * B (ix2 k c) := by
  simp only [matmul]
  rw [Ideal.matmul_constant_zero_apply, ← Equiv.sum_comp (ValueIdx.contrEquiv1 dot_S1000x256_S256x512_S1000x512_1_0_0_1_n_n 256 rfl rfl).symm]
  refine Finset.sum_congr rfl fun k _ => ?_
  have hk := ValueIdx.contrEquiv1_symm_val dot_S1000x256_S256x512_S1000x512_1_0_0_1_n_n 256 rfl rfl k
  have el : dot_S1000x256_S256x512_S1000x512_1_0_0_1_n_n.lhsIdx (ix2 r c) ((ValueIdx.contrEquiv1 dot_S1000x256_S256x512_S1000x512_1_0_0_1_n_n 256 rfl rfl).symm k) = ix2 r k := funext fun a => Fin.ext (by
    match a with
    | ⟨0, _⟩ => exact lhs1_0 _ _
    | ⟨1, _⟩ => exact (lhs1_1 _ _).trans hk)
  have er : dot_S1000x256_S256x512_S1000x512_1_0_0_1_n_n.rhsIdx (ix2 r c) ((ValueIdx.contrEquiv1 dot_S1000x256_S256x512_S1000x512_1_0_0_1_n_n 256 rfl rfl).symm k) = ix2 k c := funext fun a => Fin.ext (by
    match a with
    | ⟨0, _⟩ => exact (rhs1_0 _ _).trans hk
    | ⟨1, _⟩ => exact rhs1_1 _ _)
  rw [el, er]

theorem lhs2_0 (i : S1000x256.Idx) (q : dot_S1000x512_S512x256_S1000x256_1_0_0_1_n_n.contr.Idx) :
    (dot_S1000x512_S512x256_S1000x256_1_0_0_1_n_n.lhsIdx i q 0).val = (i 0).val := by
  unfold DotDims.lhsIdx
  rw [dif_neg (show ¬(0 : Fin S1000x512.rank) ∈ dot_S1000x512_S512x256_S1000x256_1_0_0_1_n_n.lhsBatch by decide), dif_pos (show (0 : Fin S1000x512.rank) ∈ dot_S1000x512_S512x256_S1000x256_1_0_0_1_n_n.lhsNonContracting by decide)]
  rfl
theorem lhs2_1 (i : S1000x256.Idx) (q : dot_S1000x512_S512x256_S1000x256_1_0_0_1_n_n.contr.Idx) :
    (dot_S1000x512_S512x256_S1000x256_1_0_0_1_n_n.lhsIdx i q 1).val = (q ⟨0, by decide⟩).val :=
  dot_S1000x512_S512x256_S1000x256_1_0_0_1_n_n.lhsIdx_val_of_single rfl i q
theorem rhs2_0 (i : S1000x256.Idx) (q : dot_S1000x512_S512x256_S1000x256_1_0_0_1_n_n.contr.Idx) :
    (dot_S1000x512_S512x256_S1000x256_1_0_0_1_n_n.rhsIdx i q 0).val = (q ⟨0, by decide⟩).val :=
  dot_S1000x512_S512x256_S1000x256_1_0_0_1_n_n.rhsIdx_val_of_single rfl i q
theorem rhs2_1 (i : S1000x256.Idx) (q : dot_S1000x512_S512x256_S1000x256_1_0_0_1_n_n.contr.Idx) :
    (dot_S1000x512_S512x256_S1000x256_1_0_0_1_n_n.rhsIdx i q 1).val = (i 1).val := by
  unfold DotDims.rhsIdx
  rw [dif_neg (show ¬(1 : Fin S512x256.rank) ∈ dot_S1000x512_S512x256_S1000x256_1_0_0_1_n_n.rhsBatch by decide), dif_pos (show (1 : Fin S512x256.rank) ∈ dot_S1000x512_S512x256_S1000x256_1_0_0_1_n_n.rhsNonContracting by decide)]
  rfl

/-- A [1000, 512] × [512, 256] product into the zero accumulator, at `(r, c)`: the sum over the 512 contracted positions. -/
theorem matmul2_apply (A : FVec Ideal S1000x512 .bf16) (B : FVec Ideal S512x256 .bf16) (r : Fin 1000) (c : Fin 256) :
    matmul dot_S1000x512_S512x256_S1000x256_1_0_0_1_n_n none A B (constant S1000x256 .f32 0x00000000#32) (ix2 r c)
      = ∑ k : Fin 512, A (ix2 r k) * B (ix2 k c) := by
  simp only [matmul]
  rw [Ideal.matmul_constant_zero_apply, ← Equiv.sum_comp (ValueIdx.contrEquiv1 dot_S1000x512_S512x256_S1000x256_1_0_0_1_n_n 512 rfl rfl).symm]
  refine Finset.sum_congr rfl fun k _ => ?_
  have hk := ValueIdx.contrEquiv1_symm_val dot_S1000x512_S512x256_S1000x256_1_0_0_1_n_n 512 rfl rfl k
  have el : dot_S1000x512_S512x256_S1000x256_1_0_0_1_n_n.lhsIdx (ix2 r c) ((ValueIdx.contrEquiv1 dot_S1000x512_S512x256_S1000x256_1_0_0_1_n_n 512 rfl rfl).symm k) = ix2 r k := funext fun a => Fin.ext (by
    match a with
    | ⟨0, _⟩ => exact lhs2_0 _ _
    | ⟨1, _⟩ => exact (lhs2_1 _ _).trans hk)
  have er : dot_S1000x512_S512x256_S1000x256_1_0_0_1_n_n.rhsIdx (ix2 r c) ((ValueIdx.contrEquiv1 dot_S1000x512_S512x256_S1000x256_1_0_0_1_n_n 512 rfl rfl).symm k) = ix2 k c := funext fun a => Fin.ext (by
    match a with
    | ⟨0, _⟩ => exact (rhs2_0 _ _).trans hk
    | ⟨1, _⟩ => exact rhs2_1 _ _)
  rw [el, er]

/-! ## Layout and pointwise pieces at an index -/

/-- A bias vector laid along the rows of a block reads its entry of the column. -/
theorem bias_apply {a b : ℕ} (v : (⟨1, ![b]⟩ : Shape).Idx → EReal) (h : (⟨1, ![b]⟩ : Shape).ShapeCasts ⟨2, ![1, b]⟩)
    (h' : (⟨2, ![1, b]⟩ : Shape).Broadcasts ⟨2, ![a, b]⟩) (r : Fin a) (c : Fin b) :
    broadcastTo ⟨2, ![a, b]⟩ (shapeCast ⟨2, ![1, b]⟩ v h) h' (ix2 r c) = v (ix1 c) :=
  (broadcastTo_1b_ab_apply _ h' r c).trans (shapeCast_a_1a_apply v h _ c)

/-- A row sum kept as a one-column array, read at row `r`: the sum of the row's 256 entries. -/
theorem rowsum_apply (src : FVec Ideal S1000x256 .f32) (h : S1000x256.Reduces [1] S1000) (hφ : FKind.Formats .f32)
    (hacc : (0x00000000#32 : BitVec 32) = FKind.add.neutral .f32 hφ) (h' : S1000.ShapeCasts S1000x1) (r : Fin 1000) (u : Fin 1) :
    shapeCast S1000x1 (multiReduction .add [1] S1000 src 0x00000000#32 h hφ hacc) h' (ix2 r u) = ∑ d : Fin 256, src (ix2 r d) := by
  refine (shapeCast_a_a1_apply _ h' r u).trans ?_
  refine (Ideal.multiReduction_add_single src 0x00000000#32 h hφ hacc (ix1 r)).trans ?_
  refine Finset.sum_congr rfl fun d _ => ?_
  exact congrArg src (funext fun a => Fin.ext (by match a with | ⟨0, _⟩ => rfl | ⟨1, _⟩ => rfl))

theorem logistic_apply {s : Shape} (v : FVec Ideal s .f32) (i : s.Idx) : logistic v i = Ideal.logistic (v i) := rfl
theorem rsqrt_apply {s : Shape} (v : FVec Ideal s .f32) (i : s.Idx) : rsqrt v i = Ideal.rsqrt (v i) := rfl

/-! ## The body's payloads at a row -/

section Row
variable (x0 x1 : Vec Ideal S1000x256 .f32) (x2 x3 : Vec Ideal S256x512 .bf16) (x4 : Vec Ideal S512 .f32)
  (x5 : Vec Ideal S512x256 .bf16) (x6 x7 x8 : Vec Ideal S256 .f32)

/-- The second linear layer of the block, at row `r`, feature `d`. -/
theorem lin_row (r : Fin 1000) (d : Fin 256) :
    k0_pay2 (F := Ideal) x0 x1 x2 x3 x4 x5 x6 (ix2 r d) = lin (fun k j => x2 (ix2 k j)) (fun k j => x3 (ix2 k j)) (fun j => x4 (ix1 j)) (fun j d => x5 (ix2 j d)) (fun d => x6 (ix1 d)) (fun k => x0 (ix2 r k)) (fun k => x1 (ix2 r k)) d := by
  unfold k0_pay2 lin act pre
  simp only [addf_apply, mulf_apply, truncf_apply, shapeCast_self, matmul1_apply, matmul2_apply, bias_apply, logistic_apply]

/-- The block's row means. -/
theorem mean_row (r : Fin 1000) (u : Fin 1) :
    k0_pay3 (F := Ideal) x0 x1 x2 x3 x4 x5 x6 (ix2 r u) = mean (fun k j => x2 (ix2 k j)) (fun k j => x3 (ix2 k j)) (fun j => x4 (ix1 j)) (fun j d => x5 (ix2 j d)) (fun d => x6 (ix1 d)) (fun k => x0 (ix2 r k)) (fun k => x1 (ix2 r k)) := by
  unfold k0_pay3 mean
  simp only [divf_apply, broadcast_apply]
  exact congrArg₂ Ideal.div
    ((rowsum_apply _ _ _ _ _ r u).trans (Finset.sum_congr rfl fun d _ => lin_row x0 x1 x2 x3 x4 x5 x6 r d)) rfl

/-- The block's centred rows. -/
theorem cen_row (r : Fin 1000) (d : Fin 256) :
    k0_pay5 (F := Ideal) x0 x1 x2 x3 x4 x5 x6 (ix2 r d) = cen (fun k j => x2 (ix2 k j)) (fun k j => x3 (ix2 k j)) (fun j => x4 (ix1 j)) (fun j d => x5 (ix2 j d)) (fun d => x6 (ix1 d)) (fun k => x0 (ix2 r k)) (fun k => x1 (ix2 r k)) d := by
  unfold k0_pay5 cen
  simp only [subf_apply, broadcastTo_a1_ab_apply, lin_row, mean_row]

/-- The block's row variances. -/
theorem var_row (r : Fin 1000) (u : Fin 1) :
    k0_pay4 (F := Ideal) x0 x1 x2 x3 x4 x5 x6 (ix2 r u) = var (fun k j => x2 (ix2 k j)) (fun k j => x3 (ix2 k j)) (fun j => x4 (ix1 j)) (fun j d => x5 (ix2 j d)) (fun d => x6 (ix1 d)) (fun k => x0 (ix2 r k)) (fun k => x1 (ix2 r k)) := by
  unfold k0_pay4 var cen
  simp only [divf_apply, broadcast_apply]
  refine congrArg₂ Ideal.div ((rowsum_apply _ _ _ _ _ r u).trans (Finset.sum_congr rfl fun d _ => ?_)) rfl
  simp only [mulf_apply, subf_apply, broadcastTo_a1_ab_apply, lin_row, mean_row]

/-- WHAT THE BODY STORES at row `r`, feature `d` of the block. -/
theorem stored_row (r : Fin 1000) (d : Fin 256) :
    k0_pay1 (F := Ideal) x0 (k0_pay4 (F := Ideal) x0 x1 x2 x3 x4 x5 x6) (k0_pay5 (F := Ideal) x0 x1 x2 x3 x4 x5 x6) (Scalar.ofBits .f32 0x3727C5AC#32) x7 x8 (ix2 r d)
      = rowOut (fun k j => x2 (ix2 k j)) (fun k j => x3 (ix2 k j)) (fun j => x4 (ix1 j)) (fun j d => x5 (ix2 j d)) (fun d => x6 (ix1 d)) (fun d => x7 (ix1 d)) (fun d => x8 (ix1 d)) (fun k => x0 (ix2 r k)) (fun k => x1 (ix2 r k)) d := by
  unfold k0_pay1 rowOut
  simp only [addf_apply, mulf_apply, broadcastTo_a1_ab_apply, rsqrt_apply, broadcast_apply, bias_apply, cen_row, var_row]
  rfl

end Row

end Cert.NodeUpdate.Ker

end
-- ==== Proof.KerValue.lean ====
/-
  The kernel's result array.  Before the region @main computes the edge aggregate (a scatter-add, kept here as one
  unopened term `agg`), cuts the first weight matrix into its upper and lower halves and changes the weights' float
  format (the identity on extended reals).  The region's grid has 50 points; point `t` stages rows
  `1000·t … 1000·t + 999` of the node features and of the aggregate, and every parameter whole, and writes back
  the same rows of the result.  So what point `t` writes back is block `t` of ONE function of the arrays — `G`
  of the node features, the aggregate and the parameters — and the 50 blocks tile the result array: after the run the
  result array is `G`.
-/
import proofs.«171386_j1159641170086_1_alg».proof.Proof.Gen.KernelIdeal.Value
import proofs.«171386_j1159641170086_1_alg».proof.Proof.KerRow
import Idealize.ShloMosaic.Lib.StableHlo.Run

noncomputable section

namespace Cert.KernelIdeal.NodeValue

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

/-! ## The arrays the region finds -/

/-- The edge aggregate: the scatter-add of the edge features onto the nodes named by the first row of the edge index,
    from zeros.  Never opened. -/
def agg (c : Dev nD) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0
      (shapeCast _ (extractStridedSlice S1x800000 ![0, 0] (m ((c : Thread nD τ).loc main_arg1)) slices_S2x800000_S1x800000_0_0) shapeCasts_S1x800000_S800000))
    (m ((c : Thread nD τ).loc main_arg2))

/-- Window 1's array is the aggregate. -/
theorem V_agg (c : Dev nD) : (V m c main_v4 : S50000x256.Idx → EReal) = agg m c := by
  dsimp only [Gen.V, Gen.hostOps0]; after_results; rfl

/-- Window 2's array: the upper half of the first weight matrix. -/
theorem V_upper (c : Dev nD) : (V m c main_v6 : S256x512.Idx → EReal)
    = truncf (F := Ideal) .bf16 (extractStridedSlice S256x512 ![0, 0] (m ((c : Thread nD τ).loc main_arg3)) slices_S512x512_S256x512_0_0) bitsLt_bf16_f32 := by
  dsimp only [Gen.V, Gen.hostOps0]; after_results

/-- Window 3's array: the lower half of the first weight matrix. -/
theorem V_lower (c : Dev nD) : (V m c main_v8 : S256x512.Idx → EReal)
    = truncf (F := Ideal) .bf16 (extractStridedSlice S256x512 ![256, 0] (m ((c : Thread nD τ).loc main_arg3)) slices_S512x512_S256x512_256_0) bitsLt_bf16_f32 := by
  dsimp only [Gen.V, Gen.hostOps0]; after_results

/-- Window 5's array: the second weight matrix. -/
theorem V_second (c : Dev nD) : (V m c main_v9 : S512x256.Idx → EReal)
    = truncf (F := Ideal) .bf16 (m ((c : Thread nD τ).loc main_arg5)) bitsLt_bf16_f32 := by
  dsimp only [Gen.V, Gen.hostOps0]; after_results

/-! ## Each window's block at a point, read at an index -/

/-- The printed index maps, decided over the 50 points: windows 0, 1 and 9 move one block of rows per point,
    every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-- Row `r` of point `t`'s block is row `1000·t + r` of the array. -/
def rowOf (t : Fin cfg0.N) (r : Fin 1000) : Fin 50000 :=
  ⟨t.val * 1000 + r.val, by have h1 := t.isLt; have hN : cfg0.N = 50 := N_0; have h2 := r.isLt; omega⟩

theorem blk0_apply (c : Dev nD) (t : Fin cfg0.N) (r : Fin 1000) (k : Fin 256) :
    iblk m c 0 t (ix2 r k) = (m ((c : Thread nD τ).loc main_arg0)) (ix2 (rowOf t r) k) := by
  obtain ⟨e0, e1, -⟩ := idx_facts t
  rw [← V_main_arg0 m c]
  show V m c main_arg0 (((cfg0.win 0).blk t).view.emb (ix2 r k)) = V m c main_arg0 (ix2 (rowOf t r) k)
  refine congrArg (V m c main_arg0) (funext fun a => Fin.ext ?_)
  match a with
  | ⟨0, _⟩ => show win0_0.index t (0 : Fin 2) * 1000 + 1 * r.val = t.val * 1000 + r.val; omega
  | ⟨1, _⟩ => show win0_0.index t (1 : Fin 2) * 256 + 1 * k.val = k.val; omega

theorem blk1_apply (c : Dev nD) (t : Fin cfg0.N) (r : Fin 1000) (k : Fin 256) :
    iblk m c 1 t (ix2 r k) = agg m c (ix2 (rowOf t r) k) := by
  obtain ⟨-, -, e0, e1, -⟩ := idx_facts t
  -- the block read, for ANY contents of the region's buffers (so that the aggregate's term is never opened)
  have key : ∀ VV : (b : Ref sig .tc) → Buf (Elt Ideal) ((c : Thread nD τ).loc b),
      ((cfg0.win 1).blk t).view.read (Elt Ideal) (VV (Pipeline.arrRef spec0 1)) (ix2 r k) = VV main_v4 (ix2 (rowOf t r) k) := by
    intro VV
    show VV main_v4 (((cfg0.win 1).blk t).view.emb (ix2 r k)) = VV main_v4 (ix2 (rowOf t r) k)
    refine congrArg (VV main_v4) (funext fun a => Fin.ext ?_)
    match a with
    | ⟨0, _⟩ => show win0_1.index t (0 : Fin 2) * 1000 + 1 * r.val = t.val * 1000 + r.val; omega
    | ⟨1, _⟩ => show win0_1.index t (1 : Fin 2) * 256 + 1 * k.val = k.val; omega
  unfold iblk
  exact (key (V m c)).trans (congrFun (V_agg m c) _)

theorem blk2_apply (c : Dev nD) (t : Fin cfg0.N) (k : Fin 256) (j : Fin 512) :
    iblk m c 2 t (ix2 k j) = (m ((c : Thread nD τ).loc main_arg3)) (ix2 (lo k) j) := by
  obtain ⟨-, -, -, -, e0, e1, -⟩ := idx_facts t
  have hV : iblk m c 2 t (ix2 k j) = V m c main_v6 (ix2 k j) := by
    show V m c main_v6 (((cfg0.win 2).blk t).view.emb (ix2 k j)) = V m c main_v6 (ix2 k j)
    refine congrArg (V m c main_v6) (funext fun a => Fin.ext ?_)
    match a with
    | ⟨0, _⟩ => show win0_2.index t (0 : Fin 2) * 256 + 1 * k.val = k.val; omega
    | ⟨1, _⟩ => show win0_2.index t (1 : Fin 2) * 512 + 1 * j.val = j.val; omega
  rw [hV, V_upper]
  exact slice2_axis0_apply 0 (m ((c : Thread nD τ).loc main_arg3)) slices_S512x512_S256x512_0_0 k j (lo k) (Nat.zero_add _).symm

theorem blk3_apply (c : Dev nD) (t : Fin cfg0.N) (k : Fin 256) (j : Fin 512) :
    iblk m c 3 t (ix2 k j) = (m ((c : Thread nD τ).loc main_arg3)) (ix2 (hi k) j) := by
  obtain ⟨-, -, -, -, -, -, e0, e1, -⟩ := idx_facts t
  have hV : iblk m c 3 t (ix2 k j) = V m c main_v8 (ix2 k j) := by
    show V m c main_v8 (((cfg0.win 3).blk t).view.emb (ix2 k j)) = V m c main_v8 (ix2 k j)
    refine congrArg (V m c main_v8) (funext fun a => Fin.ext ?_)
    match a with
    | ⟨0, _⟩ => show win0_3.index t (0 : Fin 2) * 256 + 1 * k.val = k.val; omega
    | ⟨1, _⟩ => show win0_3.index t (1 : Fin 2) * 512 + 1 * j.val = j.val; omega
  rw [hV, V_lower]
  exact slice2_axis0_apply 256 (m ((c : Thread nD τ).loc main_arg3)) slices_S512x512_S256x512_256_0 k j (hi k) rfl

theorem blk4_apply (c : Dev nD) (t : Fin cfg0.N) (j : Fin 512) :
    iblk m c 4 t (ix1 j) = (m ((c : Thread nD τ).loc main_arg4)) (ix1 j) := by
  obtain ⟨-, -, -, -, -, -, -, -, e0, -⟩ := idx_facts t
  rw [← V_main_arg4 m c]
  show V m c main_arg4 (((cfg0.win 4).blk t).view.emb (ix1 j)) = V m c main_arg4 (ix1 j)
  refine congrArg (V m c main_arg4) (funext fun a => Fin.ext ?_)
  match a with
  | ⟨0, _⟩ => show win0_4.index t (0 : Fin 1) * 512 + 1 * j.val = j.val; omega

theorem blk5_apply (c : Dev nD) (t : Fin cfg0.N) (j : Fin 512) (d : Fin 256) :
    iblk m c 5 t (ix2 j d) = (m ((c : Thread nD τ).loc main_arg5)) (ix2 j d) := by
  obtain ⟨-, -, -, -, -, -, -, -, -, e0, e1, -⟩ := idx_facts t
  have hV : iblk m c 5 t (ix2 j d) = V m c main_v9 (ix2 j d) := by
    show V m c main_v9 (((cfg0.win 5).blk t).view.emb (ix2 j d)) = V m c main_v9 (ix2 j d)
    refine congrArg (V m c main_v9) (funext fun a => Fin.ext ?_)
    match a with
    | ⟨0, _⟩ => show win0_5.index t (0 : Fin 2) * 512 + 1 * j.val = j.val; omega
    | ⟨1, _⟩ => show win0_5.index t (1 : Fin 2) * 256 + 1 * d.val = d.val; omega
  rw [hV, V_second]
  rfl

theorem blk6_apply (c : Dev nD) (t : Fin cfg0.N) (d : Fin 256) :
    iblk m c 6 t (ix1 d) = (m ((c : Thread nD τ).loc main_arg6)) (ix1 d) := by
  obtain ⟨-, -, -, -, -, -, -, -, -, -, -, e0, -⟩ := idx_facts t
  rw [← V_main_arg6 m c]
  show V m c main_arg6 (((cfg0.win 6).blk t).view.emb (ix1 d)) = V m c main_arg6 (ix1 d)
  refine congrArg (V m c main_arg6) (funext fun a => Fin.ext ?_)
  match a with
  | ⟨0, _⟩ => show win0_6.index t (0 : Fin 1) * 256 + 1 * d.val = d.val; omega

theorem blk7_apply (c : Dev nD) (t : Fin cfg0.N) (d : Fin 256) :
    iblk m c 7 t (ix1 d) = (m ((c : Thread nD τ).loc main_arg7)) (ix1 d) := by
  obtain ⟨-, -, -, -, -, -, -, -, -, -, -, -, e0, -⟩ := idx_facts t
  rw [← V_main_arg7 m c]
  show V m c main_arg7 (((cfg0.win 7).blk t).view.emb (ix1 d)) = V m c main_arg7 (ix1 d)
  refine congrArg (V m c main_arg7) (funext fun a => Fin.ext ?_)
  match a with
  | ⟨0, _⟩ => show win0_7.index t (0 : Fin 1) * 256 + 1 * d.val = d.val; omega

theorem blk8_apply (c : Dev nD) (t : Fin cfg0.N) (d : Fin 256) :
    iblk m c 8 t (ix1 d) = (m ((c : Thread nD τ).loc main_arg8)) (ix1 d) := by
  obtain ⟨-, -, -, -, -, -, -, -, -, -, -, -, -, e0, -⟩ := idx_facts t
  rw [← V_main_arg8 m c]
  show V m c main_arg8 (((cfg0.win 8).blk t).view.emb (ix1 d)) = V m c main_arg8 (ix1 d)
  refine congrArg (V m c main_arg8) (funext fun a => Fin.ext ?_)
  match a with
  | ⟨0, _⟩ => show win0_8.index t (0 : Fin 1) * 256 + 1 * d.val = d.val; omega

/-! ## What a point writes back, and the array after the run -/

/-- The result array as one function of the arrays the program is launched with. -/
def result (c : Dev nD) : S50000x256.Idx → EReal :=
  G (m ((c : Thread nD τ).loc main_arg0)) (agg m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz2 : (![0, 0] : Fin 2 → Nat) = fun _ => 0 := funext fun a => by fin_cases a <;> rfl
theorem hz1 : (![0] : Fin 1 → Nat) = fun _ => 0 := funext fun a => by fin_cases a; rfl

/-- WHAT POINT `t` WRITES BACK is block `t` of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  simp only [View.ld_unit_zero (S := S1000x256) hz2, View.ld_unit_zero (S := S256x512) hz2, View.ld_unit_zero (S := S512) hz1,
    View.ld_unit_zero (S := S512x256) hz2, View.ld_unit_zero (S := S256) hz1]
  funext j
  obtain ⟨r, d, rfl⟩ : ∃ (r : Fin 1000) (d : Fin 256), j = ix2 r d :=
    ⟨⟨(j 0).val, (j 0).isLt⟩, ⟨(j 1).val, (j 1).isLt⟩, funext fun a => by match a with | ⟨0, _⟩ => rfl | ⟨1, _⟩ => rfl⟩
  obtain ⟨-, -, -, -, -, -, -, -, -, -, -, -, -, -, e0, e1⟩ := idx_facts t
  have hemb : ((cfg0.win 9).blk t).view.emb (ix2 r d) = ix2 (rowOf t r) d := funext fun a => Fin.ext (by
    match a with
    | ⟨0, _⟩ => show win0_9.index t (0 : Fin 2) * 1000 + 1 * r.val = t.val * 1000 + r.val; omega
    | ⟨1, _⟩ => show win0_9.index t (1 : Fin 2) * 256 + 1 * d.val = d.val; omega)
  show k0_pay1 (F := Ideal) (iblk m c 0 t)
      (k0_pay4 (F := Ideal) (iblk m c 0 t) (iblk m c 1 t) (iblk m c 2 t) (iblk m c 3 t) (iblk m c 4 t) (iblk m c 5 t) (iblk m c 6 t))
      (k0_pay5 (F := Ideal) (iblk m c 0 t) (iblk m c 1 t) (iblk m c 2 t) (iblk m c 3 t) (iblk m c 4 t) (iblk m c 5 t) (iblk m c 6 t))
      (Scalar.ofBits .f32 0x3727C5AC#32) (iblk m c 7 t) (iblk m c 8 t) (ix2 r d)
    = result m c (((cfg0.win 9).blk t).view.emb (ix2 r d))
  rw [hemb]
  refine (Ker.stored_row (iblk m c 0 t) (iblk m c 1 t) (iblk m c 2 t) (iblk m c 3 t) (iblk m c 4 t) (iblk m c 5 t)
    (iblk m c 6 t) (iblk m c 7 t) (iblk m c 8 t) r d).trans ?_
  simp only [blk0_apply, blk1_apply, blk2_apply, blk3_apply, blk4_apply, blk5_apply, blk6_apply, blk7_apply, blk8_apply]
  unfold result
  exact (G_apply _ _ _ _ _ _ _ _ (rowOf t r) d).symm

/-- An index of the array is in point `t`'s block iff each coordinate is in the block's range on its axis. -/
theorem mem_blk (t : Fin cfg0.N) (i : S50000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v10).slice (win0_9.rect t)).set ↔ _
  rw [View.set_slice_whole, Rect.mem_set_unit]
  exact Iff.rfl

/-- Every block of rows is some point's. -/
theorem idx_onto : ∀ q : Fin 50, ∃ t : Fin cfg0.N, win0_9.index t = ![q.val, 0] :=
  (by decide +kernel : ∀ q : Fin 50, ∃ t : Fin grid0.N, win0_9.index t = ![q.val, 0])

/-- The 50 blocks cover the array: row `n` is in the block of point `n / 1000`. -/
theorem cover (i : S50000x256.Idx) : ∃ t : Fin cfg0.N, (cfg0.win 9).flush t = true ∧ i ∈ ((cfg0.win 9).blk t).view.set := by
  have hi0 : (i 0).val < 50000 := (i 0).isLt
  have hi1 : (i 1).val < 256 := (i 1).isLt
  obtain ⟨t, ht⟩ := idx_onto ⟨(i 0).val / 1000, by omega⟩
  have q0 : win0_9.index t (0 : Fin 2) = (i 0).val / 1000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 256 ≤ (i 1).val ∧ (i 1).val < win0_9.index t (1 : Fin 2) * 256 + 256; omega

/-- THE RESULT ARRAY after the run is `result`. -/
theorem final (c : Dev nD) : (dats m 0 c).arrAt 9 cfg0.N = result m c :=
  (dats m 0 c).arrAt_eq_of_cover 9 (result m c) (fun t _ => flushed_eq m c t) cover

/-- The kernel's run: every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.NodeValue

end
-- ==== Proof.lean ====
/-
  The node update of a message-passing layer: node features `x` [50000, 256], an edge aggregate (the scatter-add of
  the edge features onto the nodes named by the first row of the edge index), then per node
    h = SiLU ([x | agg] · W1 + b1),   y = h · W2 + b2,   result = LayerNorm (y) · γ + β + x.
  The kernel computes the aggregate with the same host scatter-add as the reference and runs the rest as one fused
  region over 50 blocks of 1000 rows, with `[x | agg] · W1` split as `x · W1[0:256] + agg · W1[256:512]`.

  Read at the extended reals the two programs compute ONE function `G` of the launch arrays (Proof/RowSpec.lean):
  the split of the 512-position contraction into its two halves is the only law between them, and it is a
  regrouping of a sum (no finiteness needed); the reference's `1 / (1 + e^(−p))` is the kernel's logistic; sums,
  the two divisions by the word of 256, `rsqrt` and the guard word ε are the same operations on both sides; changes
  of float format are the identity.
    • Proof/RefRow.lean    the reference's result is `G`, row by row;
    • Proof/KerRow.lean    what the kernel's body stores, row by row;
    • Proof/KerValue.lean  each grid point writes back one block of `G`, the blocks tile the array;
    • Proof/LibColumn.lean two general lemmas on one-column arrays.
  The frames of the two kernel programs are the generated ones; the reference's frame is its run with the result
  dropped; the idealization rewrote nothing, so `preserves` is `True`.
-/
import proofs.«171386_j1159641170086_1_alg».proof.Defs
import proofs.«171386_j1159641170086_1_alg».proof.Proof.Gen.Kernel
import proofs.«171386_j1159641170086_1_alg».proof.Proof.Gen.Kernel.Skeleton
import proofs.«171386_j1159641170086_1_alg».proof.Proof.Gen.Kernel.Launch
import proofs.«171386_j1159641170086_1_alg».proof.Proof.Gen.Kernel.Points
import proofs.«171386_j1159641170086_1_alg».proof.Proof.Gen.Kernel.Frame
import proofs.«171386_j1159641170086_1_alg».proof.Proof.Gen.KernelIdeal
import proofs.«171386_j1159641170086_1_alg».proof.Proof.Gen.KernelIdeal.Skeleton
import proofs.«171386_j1159641170086_1_alg».proof.Proof.Gen.KernelIdeal.Launch
import proofs.«171386_j1159641170086_1_alg».proof.Proof.Gen.KernelIdeal.Points
import proofs.«171386_j1159641170086_1_alg».proof.Proof.Gen.KernelIdeal.Frame
import proofs.«171386_j1159641170086_1_alg».proof.Proof.Gen.ReferenceIdeal
import proofs.«171386_j1159641170086_1_alg».proof.Proof.Gen.Pre_finite_inputs
import proofs.«171386_j1159641170086_1_alg».proof.Proof.Gen.KernelIdeal.Value
import proofs.«171386_j1159641170086_1_alg».proof.Proof.Gen.ReferenceIdeal.Run
import proofs.«171386_j1159641170086_1_alg».proof.Proof.Gen.ReferenceIdeal.Read
import proofs.«171386_j1159641170086_1_alg».proof.Proof.RefRow
import proofs.«171386_j1159641170086_1_alg».proof.Proof.KerValue
import Idealize.ShloMosaic.Adequacy
import Idealize.ShloMosaic.Init

noncomputable section

namespace Cert.Proof

open Idealize.ShloMosaic Idealize.ShloMosaic.TcCoe Idealize.SL.Sem

/-- The edge aggregate is the same term in both programs: the reference's stage is the kernel program's host
    scatter-add of the same three operands. -/
theorem aggregate_eq (m : (ℓ : Loc Cert.KernelIdeal.nD Cert.KernelIdeal.τ Cert.KernelIdeal.sig) → Buf (Elt Ideal) ℓ)
    (c : Dev Cert.KernelIdeal.nD) :
    Cert.ReferenceIdeal.Read.val_main_v4 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg2))
      = Cert.KernelIdeal.NodeValue.agg m c := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.KernelIdeal.NodeValue.agg
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the launch arrays. -/
theorem algebraic : Cert.algebraic_KernelIdeal_ReferenceIdeal := by
  intro m ρ m' ρ' _ hagree
  refine ⟨fun c => Cert.KernelIdeal.NodeValue.result m c, Cert.KernelIdeal.NodeValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v39_eq, Cert.NodeUpdate.Ref.result_eq, h0, h1, h2, h3, h4, h5, h6, h7, h8,
    aggregate_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
